-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x256 : Shape := ⟨2, ![256, 256]⟩
abbrev S256 : Shape := ⟨1, ![256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S2048x256 .f32) (main_arg1 : FVec F S256x256 .f32) (main_arg2 : FVec F S256x256 .f32) (main_arg3 : FVec F S256x256 .f32) (main_arg4 : FVec F S256 .f32) (main_arg5 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S2048x256 : Shape := ⟨2, ![2048, 256]⟩
abbrev S256x256 : Shape := ⟨2, ![256, 256]⟩
abbrev S256 : Shape := ⟨1, ![256]⟩
abbrev S16x256 : Shape := ⟨2, ![16, 256]⟩
abbrev S16x1x256 : Shape := ⟨3, ![16, 1, 256]⟩
abbrev S1x256x256 : Shape := ⟨3, ![1, 256, 256]⟩
abbrev S16x256x256 : Shape := ⟨3, ![16, 256, 256]⟩
abbrev S_ : Shape := ⟨0, ![]⟩
abbrev S1x256 : Shape := ⟨2, ![1, 256]⟩

abbrev nBuf : Space → Nat
  | .hbm => 51
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S2048x256, .f32⟩
  | .hbm, ⟨7, _⟩ => ⟨S_, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S_, .i32⟩
  | .hbm, ⟨13, _⟩ => ⟨S_, .f32⟩
  | .hbm, ⟨14, _⟩ => ⟨S256, .f32⟩
  | .hbm, ⟨15, _⟩ => ⟨S1x256, .f32⟩
  | .hbm, ⟨16, _⟩ => ⟨S_, .f32⟩
  | .hbm, ⟨17, _⟩ => ⟨S1x256, .f32⟩
  | .hbm, ⟨18, _⟩ => ⟨S1x256, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S1x256, .f32⟩
  | .hbm, ⟨36, _⟩ => ⟨S2048x256, .f32⟩
  | .hbm, ⟨37, _⟩ => ⟨S2048x256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S2048x256, .f32⟩
  | .hbm, ⟨44, _⟩ => ⟨S2048x256, .f32⟩
  | .hbm, ⟨45, _⟩ => ⟨S1x256, .f32⟩
  | .hbm, ⟨46, _⟩ => ⟨S2048x256, .f32⟩
  | .hbm, ⟨47, _⟩ => ⟨S2048x256, .f32⟩
  | .hbm, ⟨48, _⟩ => ⟨S1x256, .f32⟩
  | .hbm, ⟨49, _⟩ => ⟨S2048x256, .f32⟩
  | .hbm, ⟨50, _⟩ => ⟨S2048x256, .f32⟩
  | .local _ .vmem, ⟨0, _⟩ => ⟨S16x256, .f32⟩
  | .local _ .vmem, ⟨1, _⟩ => ⟨S16x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S16x256, .f32⟩
  | .local _ .vmem, ⟨6, _⟩ => ⟨S16x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S16x256_S16x256_0_0 : ∀ a, (![0, 0] : Fin 2 → Nat) a + S16x256.size a ≤ S16x256.size a
  h_S16x256 : 0 < S16x256.numel
  inb_S256x256_S256x256_0_0 : ∀ a, (![0, 0] : Fin 2 → Nat) a + S256x256.size a ≤ S256x256.size a
  h_S256x256 : 0 < S256x256.numel
  shapeCasts_S16x256_S16x1x256 : S16x256.ShapeCasts S16x1x256
  shapeCasts_S256x256_S1x256x256 : S256x256.ShapeCasts S1x256x256
  broadcasts_S16x1x256_S16x256x256 : S16x1x256.Broadcasts S16x256x256
  broadcasts_S1x256x256_S16x256x256 : S1x256x256.Broadcasts S16x256x256
  reduces_S16x256x256_S16x256 : S16x256x256.Reduces [2] S16x256
  reducesTo_S2048x256_S256_d0 : S2048x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S2048x256_0_1 : S1x256.BroadcastsInDim S2048x256 (![0, 1] : Fin 2 → Fin S2048x256.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S2048x256.size a
  hwx0_0 : ∀ i : grid0.Coords, EltTy.bits .f32 = 32 ∨ (Rect.block (s := S2048x256) S16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S2048x256.size a
  hwx0_4 : ∀ i : grid0.Coords, EltTy.bits .f32 = 32 ∨ (Rect.block (s := S2048x256) S16x256.size (cc0_transform_4 i) (hinb0_4 i)).WholeWords (EltTy.packing .f32)

variable [Facts₀]

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x256 : Shape := ⟨2, ![256, 256]⟩
abbrev S256 : Shape := ⟨1, ![256]⟩
abbrev S2048x1x256 : Shape := ⟨3, ![2048, 1, 256]⟩
abbrev S1x256x256 : Shape := ⟨3, ![1, 256, 256]⟩
abbrev S2048x256x256 : Shape := ⟨3, ![2048, 256, 256]⟩
abbrev S_ : Shape := ⟨0, ![]⟩
abbrev S1x256 : Shape := ⟨2, ![1, 256]⟩

abbrev nBuf : Space → Nat
  | .hbm => 72
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S2048x1x256, .f32⟩
  | .hbm, ⟨7, _⟩ => ⟨S1x256x256, .f32⟩
  | .hbm, ⟨8, _⟩ => ⟨S2048x256x256, .f32⟩
  | .hbm, ⟨9, _⟩ => ⟨S2048x256x256, .f32⟩
  | .hbm, ⟨10, _⟩ => ⟨S2048x256x256, .f32⟩
  | .hbm, ⟨11, _⟩ => ⟨S1x256x256, .f32⟩
  | .hbm, ⟨12, _⟩ => ⟨S2048x256x256, .f32⟩
  | .hbm, ⟨13, _⟩ => ⟨S2048x256x256, .f32⟩
  | .hbm, ⟨14, _⟩ => ⟨S_, .f32⟩
  | .hbm, ⟨15, _⟩ => ⟨S2048x256x256, .f32⟩
  | .hbm, ⟨16, _⟩ => ⟨S2048x256x256, .f32⟩
  | .hbm, ⟨17, _⟩ => ⟨S_, .f32⟩
  | .hbm, ⟨18, _⟩ => ⟨S2048x256x256, .f32⟩
  | .hbm, ⟨19, _⟩ => ⟨S2048x256x256, .f32⟩
  | .hbm, ⟨20, _⟩ => ⟨S2048x256x256, .f32⟩
  | .hbm, ⟨21, _⟩ => ⟨S2048x256x256, .f32⟩
  | .hbm, ⟨22, _⟩ => ⟨S2048x256x256, .f32⟩
  | .hbm, ⟨23, _⟩ => ⟨S1x256x256, .f32⟩
  | .hbm, ⟨24, _⟩ => ⟨S2048x256x256, .f32⟩
  | .hbm, ⟨25, _⟩ => ⟨S2048x256x256, .f32⟩
  | .hbm, ⟨26, _⟩ => ⟨S_, .f32⟩
  | .hbm, ⟨27, _⟩ => ⟨S2048x256, .f32⟩
  | .hbm, ⟨28, _⟩ => ⟨S_, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S_, .i32⟩
  | .hbm, ⟨34, _⟩ => ⟨S_, .f32⟩
  | .hbm, ⟨35, _⟩ => ⟨S256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S2048x256, .f32⟩
  | .hbm, ⟨41, _⟩ => ⟨S2048x256, .f32⟩
  | .hbm, ⟨42, _⟩ => ⟨S2048x256, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S1x256, .f32⟩
  | .hbm, ⟨57, _⟩ => ⟨S2048x256, .f32⟩
  | .hbm, ⟨58, _⟩ => ⟨S2048x256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S1x256, .f32⟩
  | .hbm, ⟨64, _⟩ => ⟨S2048x256, .f32⟩
  | .hbm, ⟨65, _⟩ => ⟨S2048x256, .f32⟩
  | .hbm, ⟨66, _⟩ => ⟨S1x256, .f32⟩
  | .hbm, ⟨67, _⟩ => ⟨S2048x256, .f32⟩
  | .hbm, ⟨68, _⟩ => ⟨S2048x256, .f32⟩
  | .hbm, ⟨69, _⟩ => ⟨S1x256, .f32⟩
  | .hbm, ⟨70, _⟩ => ⟨S2048x256, .f32⟩
  | .hbm, ⟨71, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_cst_3 : Ref sig .tc := ⟨.hbm, 50, rfl⟩
abbrev main_call0_v12 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩

abbrev nD : Nat := 1
abbrev τ : Topo := Topo.v7x

variable {F : FTy → Type} [FloatOps F]

class Facts₀ : Prop where
  bcast_S2048x256_S2048x1x256_0_2 : S2048x256.BroadcastsInDim S2048x1x256 (![0, 2] : Fin 2 → Fin S2048x1x256.rank)
  bcast_S256x256_S1x256x256_1_2 : S256x256.BroadcastsInDim S1x256x256 (![1, 2] : Fin 2 → Fin S1x256x256.rank)
  bcast_S2048x1x256_S2048x256x256_0_1_2 : S2048x1x256.BroadcastsInDim S2048x256x256 (![0, 1, 2] : Fin 3 → Fin S2048x256x256.rank)
  bcast_S1x256x256_S2048x256x256_0_1_2 : S1x256x256.BroadcastsInDim S2048x256x256 (![0, 1, 2] : Fin 3 → Fin S2048x256x256.rank)
  bcast_S_S2048x256x256 : S_.BroadcastsInDim S2048x256x256 (![] : Fin 0 → Fin S2048x256x256.rank)
  reducesTo_S2048x256x256_S2048x256_d2 : S2048x256x256.ReducesTo [2] S2048x256
  h_S_ : 0 < S_.numel
  reducesTo_S2048x256_S256_d0 : S2048x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S2048x256_0_1 : S1x256.BroadcastsInDim S2048x256 (![0, 1] : Fin 2 → Fin S2048x256.rank)

variable [Facts₀]

class Facts : Prop extends Facts₀ where

variable [Facts]
-- ==== Proof.RefRun.lean ====
/-
  The reference program's run, read back by hand.

  @main of the reference is a straight line of host operations once its one call, of the variance helper
  (which itself calls the select helper), is unfolded at the call site: the callee's operations are listed
  inline over the call's own buffers.  So the run is the fold of the operations' results over the launch
  contents: every weakly fair execution terminates and each buffer ends at that fold.

  The fold at the result buffer is then named: the first stretch computes, from x, scale, bias and weight,
  the array  y[b,o] = Σ_i weight[o,i]·(g − 1)·exp((−½·g)·g)  with  g = scale[o,i]·(x[b,i] + bias[o,i])
  (`xmm`), and the rest is batch normalisation over the batch axis (`bnTail`): mean and biased variance of
  each column of y, then  γ·(y − mean)·rsqrt(var + ε) + β.
-/
import proofs.«113032_j64570538328242_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the variance helper's (and inside it the select helper's) listed at the call. -/
abbrev ops : List (HloOp τ sig (Elt F)) :=
  [ unary main_arg0 main_v0 (broadcastInDim S2048x1x256 ![0, 2] bcast_S2048x256_S2048x1x256_0_2 : (⟨S2048x256, .f32⟩ : BufTy).Contents (Elt F) → (⟨S2048x1x256, .f32⟩ : BufTy).Contents (Elt F)),
    unary main_arg2 main_v1 (broadcastInDim S1x256x256 ![1, 2] bcast_S256x256_S1x256x256_1_2 : (⟨S256x256, .f32⟩ : BufTy).Contents (Elt F) → (⟨S1x256x256, .f32⟩ : BufTy).Contents (Elt F)),
    unary main_v0 main_v2 (broadcastInDim S2048x256x256 ![0, 1, 2] bcast_S2048x1x256_S2048x256x256_0_1_2 : (⟨S2048x1x256, .f32⟩ : BufTy).Contents (Elt F) → (⟨S2048x256x256, .f32⟩ : BufTy).Contents (Elt F)),
    unary main_v1 main_v3 (broadcastInDim S2048x256x256 ![0, 1, 2] bcast_S1x256x256_S2048x256x256_0_1_2 : (⟨S1x256x256, .f32⟩ : BufTy).Contents (Elt F) → (⟨S2048x256x256, .f32⟩ : BufTy).Contents (Elt F)),
    binary main_v2 main_v3 main_v4 (addf : (⟨S2048x256x256, .f32⟩ : BufTy).Contents (Elt F) → (⟨S2048x256x256, .f32⟩ : BufTy).Contents (Elt F) → (⟨S2048x256x256, .f32⟩ : BufTy).Contents (Elt F)),
    unary main_arg1 main_v5 (broadcastInDim S1x256x256 ![1, 2] bcast_S256x256_S1x256x256_1_2 : (⟨S256x256, .f32⟩ : BufTy).Contents (Elt F) → (⟨S1x256x256, .f32⟩ : BufTy).Contents (Elt F)),
    unary main_v5 main_v6 (broadcastInDim S2048x256x256 ![0, 1, 2] bcast_S1x256x256_S2048x256x256_0_1_2 : (⟨S1x256x256, .f32⟩ : BufTy).Contents (Elt F) → (⟨S2048x256x256, .f32⟩ : BufTy).Contents (Elt F)),
    binary main_v6 main_v4 main_v7 (mulf : (⟨S2048x256x256, .f32⟩ : BufTy).Contents (Elt F) → (⟨S2048x256x256, .f32⟩ : BufTy).Contents (Elt F) → (⟨S2048x256x256, .f32⟩ : BufTy).Contents (Elt F)),
    nullary main_cst (constant S_ .f32 0x3F800000#32),
    unary main_cst main_v8 (broadcastInDim S2048x256x256 ![] bcast_S_S2048x256x256 : (⟨S_, .f32⟩ : BufTy).Contents (Elt F) → (⟨S2048x256x256, .f32⟩ : BufTy).Contents (Elt F)),
    binary main_v7 main_v8 main_v9 (subf : (⟨S2048x256x256, .f32⟩ : BufTy).Contents (Elt F) → (⟨S2048x256x256, .f32⟩ : BufTy).Contents (Elt F) → (⟨S2048x256x256, .f32⟩ : BufTy).Contents (Elt F)),
    nullary main_cst_0 (constant S_ .f32 0xBF000000#32),
    unary main_cst_0 main_v10 (broadcastInDim S2048x256x256 ![] bcast_S_S2048x256x256 : (⟨S_, .f32⟩ : BufTy).Contents (Elt F) → (⟨S2048x256x256, .f32⟩ : BufTy).Contents (Elt F)),
    binary main_v10 main_v7 main_v11 (mulf : (⟨S2048x256x256, .f32⟩ : BufTy).Contents (Elt F) → (⟨S2048x256x256, .f32⟩ : BufTy).Contents (Elt F) → (⟨S2048x256x256, .f32⟩ : BufTy).Contents (Elt F)),
    binary main_v11 main_v7 main_v12 (mulf : (⟨S2048x256x256, .f32⟩ : BufTy).Contents (Elt F) → (⟨S2048x256x256, .f32⟩ : BufTy).Contents (Elt F) → (⟨S2048x256x256, .f32⟩ : BufTy).Contents (Elt F)),
    unary main_v12 main_v13 (Host.exp : (⟨S2048x256x256, .f32⟩ : BufTy).Contents (Elt F) → (⟨S2048x256x256, .f32⟩ : BufTy).Contents (Elt F)),
    binary main_v9 main_v13 main_v14 (mulf : (⟨S2048x256x256, .f32⟩ : BufTy).Contents (Elt F) → (⟨S2048x256x256, .f32⟩ : BufTy).Contents (Elt F) → (⟨S2048x256x256, .f32⟩ : BufTy).Contents (Elt F)),
    unary main_arg3 main_v15 (broadcastInDim S1x256x256 ![1, 2] bcast_S256x256_S1x256x256_1_2 : (⟨S256x256, .f32⟩ : BufTy).Contents (Elt F) → (⟨S1x256x256, .f32⟩ : BufTy).Contents (Elt F)),
    unary main_v15 main_v16 (broadcastInDim S2048x256x256 ![0, 1, 2] bcast_S1x256x256_S2048x256x256_0_1_2 : (⟨S1x256x256, .f32⟩ : BufTy).Contents (Elt F) → (⟨S2048x256x256, .f32⟩ : BufTy).Contents (Elt F)),
    binary main_v16 main_v14 main_v17 (mulf : (⟨S2048x256x256, .f32⟩ : BufTy).Contents (Elt F) → (⟨S2048x256x256, .f32⟩ : BufTy).Contents (Elt F) → (⟨S2048x256x256, .f32⟩ : BufTy).Contents (Elt F)),
    nullary main_cst_1 (constant S_ .f32 0x00000000#32),
    binary main_v17 main_cst_1 main_v18 ((fun x v => Host.reduceAdd x v reducesTo_S2048x256x256_S2048x256_d2 h_S_) : (⟨S2048x256x256, .f32⟩ : BufTy).Contents (Elt F) → (⟨S_, .f32⟩ : BufTy).Contents (Elt F) → (⟨S2048x256, .f32⟩ : BufTy).Contents (Elt F)),
    nullary main_cst_2 (constant S_ .f32 0x00000000#32),
    binary main_v18 main_cst_2 main_v19 ((fun x v => Host.reduceAdd x v reducesTo_S2048x256_S256_d0 h_S_) : (⟨S2048x256, .f32⟩ : BufTy).Contents (Elt F) → (⟨S_, .f32⟩ : BufTy).Contents (Elt F) → (⟨S256, .f32⟩ : BufTy).Contents (Elt F)),
    nullary main_cst_3 (constant S_ .f32 0x45000000#32),
    unary main_cst_3 main_v20 (broadcastInDim S256 ![] bcast_S_S256 : (⟨S_, .f32⟩ : BufTy).Contents (Elt F) → (⟨S256, .f32⟩ : BufTy).Contents (Elt F)),
    binary main_v19 main_v20 main_v21 (Host.divf : (⟨S256, .f32⟩ : BufTy).Contents (Elt F) → (⟨S256, .f32⟩ : BufTy).Contents (Elt F) → (⟨S256, .f32⟩ : BufTy).Contents (Elt F)),
    nullary main_c (constantI S_ 32 0#32),
    TRef.nullary main_call0.cst (constant S_ .f32 0x00000000#32),
    TRef.binary (.of main_v18) main_call0.cst main_call0.v0 (fun x v => Host.reduceAdd x v reducesTo_S2048x256_S256_d0 h_S_),
    TRef.unary main_call0.v0 main_call0.v1 (broadcastInDim S1x256 ![1] bcast_S256_S1x256_1),
    TRef.nullary main_call0.cst_0 (constant S_ .f32 0x45000000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S2048x256 ![0, 1] bcast_S1x256_S2048x256_0_1),
    TRef.binary (.of main_v18) main_call0.v4 main_call0.v5 subf,
    TRef.binary main_call0.v5 main_call0.v5 main_call0.v6 mulf,
    TRef.unary (.of main_c) main_call0.v7 (sitofp .f32),
    TRef.nullary main_call0.cst_1 (constant S_ .f32 0x45000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2048x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b),
    unary main_v21 main_v23 (broadcastInDim S1x256 ![1] bcast_S256_S1x256_1 : (⟨S256, .f32⟩ : BufTy).Contents (Elt F) → (⟨S1x256, .f32⟩ : BufTy).Contents (Elt F)),
    unary main_v23 main_v24 (broadcastInDim S2048x256 ![0, 1] bcast_S1x256_S2048x256_0_1 : (⟨S1x256, .f32⟩ : BufTy).Contents (Elt F) → (⟨S2048x256, .f32⟩ : BufTy).Contents (Elt F)),
    binary main_v18 main_v24 main_v25 (subf : (⟨S2048x256, .f32⟩ : BufTy).Contents (Elt F) → (⟨S2048x256, .f32⟩ : BufTy).Contents (Elt F) → (⟨S2048x256, .f32⟩ : BufTy).Contents (Elt F)),
    nullary main_cst_4 (constant S_ .f32 0x3727C5AC#32),
    unary main_cst_4 main_v26 (broadcastInDim S256 ![] bcast_S_S256 : (⟨S_, .f32⟩ : BufTy).Contents (Elt F) → (⟨S256, .f32⟩ : BufTy).Contents (Elt F)),
    binary main_v22 main_v26 main_v27 (addf : (⟨S256, .f32⟩ : BufTy).Contents (Elt F) → (⟨S256, .f32⟩ : BufTy).Contents (Elt F) → (⟨S256, .f32⟩ : BufTy).Contents (Elt F)),
    unary main_v27 main_v28 (Host.rsqrt : (⟨S256, .f32⟩ : BufTy).Contents (Elt F) → (⟨S256, .f32⟩ : BufTy).Contents (Elt F)),
    unary main_v28 main_v29 (broadcastInDim S1x256 ![1] bcast_S256_S1x256_1 : (⟨S256, .f32⟩ : BufTy).Contents (Elt F) → (⟨S1x256, .f32⟩ : BufTy).Contents (Elt F)),
    unary main_v29 main_v30 (broadcastInDim S2048x256 ![0, 1] bcast_S1x256_S2048x256_0_1 : (⟨S1x256, .f32⟩ : BufTy).Contents (Elt F) → (⟨S2048x256, .f32⟩ : BufTy).Contents (Elt F)),
    binary main_v25 main_v30 main_v31 (mulf : (⟨S2048x256, .f32⟩ : BufTy).Contents (Elt F) → (⟨S2048x256, .f32⟩ : BufTy).Contents (Elt F) → (⟨S2048x256, .f32⟩ : BufTy).Contents (Elt F)),
    unary main_arg4 main_v32 (broadcastInDim S1x256 ![1] bcast_S256_S1x256_1 : (⟨S256, .f32⟩ : BufTy).Contents (Elt F) → (⟨S1x256, .f32⟩ : BufTy).Contents (Elt F)),
    unary main_v32 main_v33 (broadcastInDim S2048x256 ![0, 1] bcast_S1x256_S2048x256_0_1 : (⟨S1x256, .f32⟩ : BufTy).Contents (Elt F) → (⟨S2048x256, .f32⟩ : BufTy).Contents (Elt F)),
    binary main_v33 main_v31 main_v34 (mulf : (⟨S2048x256, .f32⟩ : BufTy).Contents (Elt F) → (⟨S2048x256, .f32⟩ : BufTy).Contents (Elt F) → (⟨S2048x256, .f32⟩ : BufTy).Contents (Elt F)),
    unary main_arg5 main_v35 (broadcastInDim S1x256 ![1] bcast_S256_S1x256_1 : (⟨S256, .f32⟩ : BufTy).Contents (Elt F) → (⟨S1x256, .f32⟩ : BufTy).Contents (Elt F)),
    unary main_v35 main_v36 (broadcastInDim S2048x256 ![0, 1] bcast_S1x256_S2048x256_0_1 : (⟨S1x256, .f32⟩ : BufTy).Contents (Elt F) → (⟨S2048x256, .f32⟩ : BufTy).Contents (Elt F)),
    binary main_v34 main_v36 main_v37 (addf : (⟨S2048x256, .f32⟩ : BufTy).Contents (Elt F) → (⟨S2048x256, .f32⟩ : BufTy).Contents (Elt F) → (⟨S2048x256, .f32⟩ : BufTy).Contents (Elt F)) ]

set_option maxRecDepth 2048 in
/-- @main is that straight line: the helpers' bodies unfolded at their calls, sequencing reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., binary_bufs_sub .., unary_bufs_sub .., binary_bufs_sub .., unary_bufs_sub ..,
    unary_bufs_sub .., binary_bufs_sub .., nullary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..⟩

/-- Every weakly fair execution of @main terminates, and each buffer ends at the operations' fold over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result buffer, named -/

/-- The first stretch: `y[b,o] = Σ_i weight[o,i]·((g − 1)·exp((−½·g)·g))`, `g = scale[o,i]·(x[b,i] + bias[o,i])`,
    as the reference's own operations over whole arrays (the three operands broadcast to `[2048, 256, 256]`,
    the pointwise chain, the sum over the last axis from zero). -/
def xmm (x : FVec F S2048x256 .f32) (sc bi w : FVec F S256x256 .f32) : FVec F S2048x256 .f32 :=
  have t : FVec F S2048x256x256 .f32 :=
    addf (broadcastInDim S2048x256x256 ![0, 1, 2] bcast_S2048x1x256_S2048x256x256_0_1_2 (broadcastInDim S2048x1x256 ![0, 2] bcast_S2048x256_S2048x1x256_0_2 x))
      (broadcastInDim S2048x256x256 ![0, 1, 2] bcast_S1x256x256_S2048x256x256_0_1_2 (broadcastInDim S1x256x256 ![1, 2] bcast_S256x256_S1x256x256_1_2 bi))
  have g : FVec F S2048x256x256 .f32 :=
    mulf (broadcastInDim S2048x256x256 ![0, 1, 2] bcast_S1x256x256_S2048x256x256_0_1_2 (broadcastInDim S1x256x256 ![1, 2] bcast_S256x256_S1x256x256_1_2 sc)) t
  have basis : FVec F S2048x256x256 .f32 :=
    mulf (subf g (broadcastInDim S2048x256x256 ![] bcast_S_S2048x256x256 (constant S_ .f32 0x3F800000#32)))
      (Host.exp (mulf (mulf (broadcastInDim S2048x256x256 ![] bcast_S_S2048x256x256 (constant S_ .f32 0xBF000000#32)) g) g))
  Host.reduceAdd
    (mulf (broadcastInDim S2048x256x256 ![0, 1, 2] bcast_S1x256x256_S2048x256x256_0_1_2 (broadcastInDim S1x256x256 ![1, 2] bcast_S256x256_S1x256x256_1_2 w)) basis)
    (constant S_ .f32 0x00000000#32) reducesTo_S2048x256x256_S2048x256_d2 h_S_

/-- A row `[256]` repeated down the batch axis. -/
abbrev rows (v : FVec F S256 .f32) : FVec F S2048x256 .f32 :=
  broadcastInDim S2048x256 ![0, 1] bcast_S1x256_S2048x256_0_1 (broadcastInDim S1x256 ![1] bcast_S256_S1x256_1 v)

/-- The variance helper on `y` with zero degrees of freedom removed: the column means (sum over the batch axis
    divided by 2048), the squared deviations summed and divided by `2048 − 0`, selected against NaN where that
    divisor is not positive. -/
def colVar (y : FVec F S2048x256 .f32) : FVec F S256 .f32 :=
  have mean1 : FVec F S1x256 .f32 :=
    Host.divf (broadcastInDim S1x256 ![1] bcast_S256_S1x256_1 (Host.reduceAdd y (constant S_ .f32 0x00000000#32) reducesTo_S2048x256_S256_d0 h_S_))
      (broadcastInDim S1x256 ![] bcast_S_S1x256 (constant S_ .f32 0x45000000#32))
  have dev : FVec F S2048x256 .f32 := subf y (broadcastInDim S2048x256 ![0, 1] bcast_S1x256_S2048x256_0_1 mean1)
  have n : FVec F S_ .f32 := subf (constant S_ .f32 0x45000000#32) (sitofp .f32 (constantI S_ 32 0#32))
  select (broadcastInDim S256 ![] bcast_S_S256 (cmpf .ogt n (constant S_ .f32 0x00000000#32)))
    (Host.divf (Host.reduceAdd (mulf dev dev) (constant S_ .f32 0x00000000#32) reducesTo_S2048x256_S256_d0 h_S_) (broadcastInDim S256 ![] bcast_S_S256 n))
    (broadcastInDim S256 ![] bcast_S_S256 (id (constant S_ .f32 0x7FC00000#32)))

/-- Batch normalisation of `y` over the batch axis with scale `γ` and shift `β`:
    `γ·((y − mean)·rsqrt(var + ε)) + β`, `mean` the column sums divided by 2048, `var` the helper's. -/
def bnTail (y : FVec F S2048x256 .f32) (γ β : FVec F S256 .f32) : FVec F S2048x256 .f32 :=
  have mean : FVec F S256 .f32 :=
    Host.divf (Host.reduceAdd y (constant S_ .f32 0x00000000#32) reducesTo_S2048x256_S256_d0 h_S_) (broadcastInDim S256 ![] bcast_S_S256 (constant S_ .f32 0x45000000#32))
  addf (mulf (rows γ)
      (mulf (subf y (rows mean)) (rows (Host.rsqrt (addf (colVar y) (broadcastInDim S256 ![] bcast_S_S256 (constant S_ .f32 0x3727C5AC#32)))))))
    (rows β)

set_option maxRecDepth 8192 in
/-- The fold at the result buffer is batch normalisation of `xmm` of the first four arguments by the last two. -/
theorem out_eq (V : Valuation τ sig (Elt F)) :
    after ops V (main_v37 : DevRef τ sig)
      = bnTail (xmm (V (main_arg0 : DevRef τ sig)) (V (main_arg1 : DevRef τ sig)) (V (main_arg2 : DevRef τ sig)) (V (main_arg3 : DevRef τ sig)))
          (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- The run, read: the result buffer ends at batch normalisation of `xmm` of the launch arguments, and the
    arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
          = bnTail (xmm (m ((c.tc : Thread nD τ).loc main_arg0)) (m ((c.tc : Thread nD τ).loc main_arg1)) (m ((c.tc : Thread nD τ).loc main_arg2)) (m ((c.tc : Thread nD τ).loc main_arg3)))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v37).trans (out_eq _), (h c main_arg0).trans (arg0_eq _), (h c main_arg1).trans (arg1_eq _),
      (h c main_arg2).trans (arg2_eq _), (h c main_arg3).trans (arg3_eq _), (h c main_arg4).trans (arg4_eq _), (h c main_arg5).trans (arg5_eq _)⟩)
    (run_fold m ρ)

end Cert.ReferenceIdeal.RefRun

end
-- ==== Proof.XmmSpec.lean ====
/-
  The common value of the two programs' first stage, and the layout readings both sides need.

  For a batch row `b` and an output feature `o` the first stage computes

      y[b,o] = Σ_i  weight[o,i] · ( (g − 1) · exp((−½ · g) · g) ),     g = scale[o,i] · (x[b,i] + bias[o,i]),

  on the extended reals, the constants `1` and `−½` kept as the words both programs print.  `rowSum` is that
  sum for an array of any number of rows (a block of 16 rows or all 2048), `Y` the whole `[2048, 256]` array.
  The sum's order and grouping play no part: addition on the extended reals is commutative and associative,
  and both programs sum the same terms over the same index set.

  The layout lemmas say where a three-axis broadcast of a two-axis operand reads: a `[rows, 256]` operand
  repeated along a new middle axis reads at `(p, k)`; a `[256, 256]` operand repeated along a new leading
  axis reads at `(q, k)`.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.XmmSpec

open Idealize.ShloMosaic Idealize.ShloMosaic.ValueIdx

/-- One term of the sum, from the four scalars it reads. -/
def term (x s b w : EReal) : EReal :=
  w * ((s * (x + b) - Ideal.ofBits .f32 0x3F800000#32)
    * Ideal.exp ((Ideal.ofBits .f32 0xBF000000#32 * (s * (x + b))) * (s * (x + b))))

/-- Row `b` of `x` against row `o` of the three `[256, 256]` operands, summed over the 256 input features. -/
def rowSum {B : Nat} (x : (⟨2, ![B, 256]⟩ : Shape).Idx → EReal) (sc bi w : (⟨2, ![256, 256]⟩ : Shape).Idx → EReal)
    (b : Fin B) (o : Fin 256) : EReal :=
  ∑ k : Fin 256, term (x (ix2 b k)) (sc (ix2 o k)) (bi (ix2 o k)) (w (ix2 o k))

/-- The whole first-stage array. -/
def Y (x : (⟨2, ![2048, 256]⟩ : Shape).Idx → EReal) (sc bi w : (⟨2, ![256, 256]⟩ : Shape).Idx → EReal) :
    (⟨2, ![2048, 256]⟩ : Shape).Idx → EReal :=
  fun i => rowSum x sc bi w (i 0) (i 1)

theorem Y_apply (x : (⟨2, ![2048, 256]⟩ : Shape).Idx → EReal) (sc bi w : (⟨2, ![256, 256]⟩ : Shape).Idx → EReal)
    (b : Fin 2048) (o : Fin 256) : Y x sc bi w (ix2 b o) = rowSum x sc bi w b o := rfl

/-- The vector unit's exponential and the host's, read at an index, are the one exponential of the extended reals. -/
theorem exp_apply {s : Shape} (v : FVec Ideal s .f32) (i : s.Idx) : exp v i = Ideal.exp (v i) := rfl
theorem hostExp_apply {s : Shape} (v : FVec Ideal s .f32) (i : s.Idx) : Host.exp v i = Ideal.exp (v i) := rfl

/-! ## Vector broadcasts of a block's operands (a shape cast to a unit axis, then the broadcast) -/

variable {α : Type}

/-- A `[16, 256]` block given a unit middle axis and broadcast to `[16, 256, 256]` reads, at `(p, q, k)`, the block at `(p, k)`. -/
theorem bcastRows_apply (v : (⟨2, ![16, 256]⟩ : Shape).Idx → α)
    (h1 : (⟨2, ![16, 256]⟩ : Shape).ShapeCasts ⟨3, ![16, 1, 256]⟩)
    (h2 : (⟨3, ![16, 1, 256]⟩ : Shape).Broadcasts ⟨3, ![16, 256, 256]⟩) (p : Fin 16) (q : Fin 256) (k : Fin 256) :
    broadcastTo ⟨3, ![16, 256, 256]⟩ (shapeCast ⟨3, ![16, 1, 256]⟩ v h1) h2 (ix3 p q k) = v (ix2 p k) := by
  refine (broadcastTo_apply _ h2 (ix3 p q k) (ix3 p (0 : Fin 1) k) fun a => ?_).trans ?_
  · match a with
    | ⟨0, _⟩ => rfl
    | ⟨1, _⟩ => rfl
    | ⟨2, _⟩ => rfl
  · refine shapeCast_apply v h1 (ix3 p (0 : Fin 1) k) (ix2 p k) ?_
    rw [Shape.rowMajor_val_two, Shape.rowMajor_val_three]
    show p.val * 256 + k.val = (p.val * 1 + 0) * 256 + k.val
    omega

/-- A `[256, 256]` block given a unit leading axis and broadcast to `[16, 256, 256]` reads, at `(p, q, k)`, the block at `(q, k)`. -/
theorem bcastMat_apply (v : (⟨2, ![256, 256]⟩ : Shape).Idx → α)
    (h1 : (⟨2, ![256, 256]⟩ : Shape).ShapeCasts ⟨3, ![1, 256, 256]⟩)
    (h2 : (⟨3, ![1, 256, 256]⟩ : Shape).Broadcasts ⟨3, ![16, 256, 256]⟩) (p : Fin 16) (q : Fin 256) (k : Fin 256) :
    broadcastTo ⟨3, ![16, 256, 256]⟩ (shapeCast ⟨3, ![1, 256, 256]⟩ v h1) h2 (ix3 p q k) = v (ix2 q k) := by
  refine (broadcastTo_apply _ h2 (ix3 p q k) (ix3 (0 : Fin 1) q k) fun a => ?_).trans ?_
  · match a with
    | ⟨0, _⟩ => rfl
    | ⟨1, _⟩ => rfl
    | ⟨2, _⟩ => rfl
  · exact shapeCast_ab_1ab_apply v h1 0 q k

/-! ## The host's `broadcast_in_dim` of a whole operand, twice -/

/-- `x : [2048, 256]` placed on axes 0 and 2 of `[2048, 1, 256]`, then broadcast to `[2048, 256, 256]`: at `(b, o, k)` it reads `x (b, k)`. -/
theorem bidRows_apply (x : (⟨2, ![2048, 256]⟩ : Shape).Idx → α)
    (h1 : (⟨2, ![2048, 256]⟩ : Shape).BroadcastsInDim ⟨3, ![2048, 1, 256]⟩ (![0, 2] : Fin 2 → Fin 3))
    (h2 : (⟨3, ![2048, 1, 256]⟩ : Shape).BroadcastsInDim ⟨3, ![2048, 256, 256]⟩ (![0, 1, 2] : Fin 3 → Fin 3))
    (b : Fin 2048) (o : Fin 256) (k : Fin 256) :
    broadcastInDim ⟨3, ![2048, 256, 256]⟩ ![0, 1, 2] h2 (broadcastInDim ⟨3, ![2048, 1, 256]⟩ ![0, 2] h1 x) (ix3 b o k) = x (ix2 b k) := by
  refine (broadcastInDim_apply _ h2 _ (ix3 b o k) (ix3 b (0 : Fin 1) k) fun a => ?_).trans ?_
  · match a with
    | ⟨0, _⟩ => rfl
    | ⟨1, _⟩ => rfl
    | ⟨2, _⟩ => rfl
  · refine broadcastInDim_apply _ h1 x (ix3 b (0 : Fin 1) k) (ix2 b k) fun a => ?_
    match a with
    | ⟨0, _⟩ => rfl
    | ⟨1, _⟩ => rfl

/-- `v : [256, 256]` placed on axes 1 and 2 of `[1, 256, 256]`, then broadcast to `[2048, 256, 256]`: at `(b, o, k)` it reads `v (o, k)`. -/
theorem bidMat_apply (v : (⟨2, ![256, 256]⟩ : Shape).Idx → α)
    (h1 : (⟨2, ![256, 256]⟩ : Shape).BroadcastsInDim ⟨3, ![1, 256, 256]⟩ (![1, 2] : Fin 2 → Fin 3))
    (h2 : (⟨3, ![1, 256, 256]⟩ : Shape).BroadcastsInDim ⟨3, ![2048, 256, 256]⟩ (![0, 1, 2] : Fin 3 → Fin 3))
    (b : Fin 2048) (o : Fin 256) (k : Fin 256) :
    broadcastInDim ⟨3, ![2048, 256, 256]⟩ ![0, 1, 2] h2 (broadcastInDim ⟨3, ![1, 256, 256]⟩ ![1, 2] h1 v) (ix3 b o k) = v (ix2 o k) := by
  refine (broadcastInDim_apply _ h2 _ (ix3 b o k) (ix3 (0 : Fin 1) o k) fun a => ?_).trans ?_
  · match a with
    | ⟨0, _⟩ => rfl
    | ⟨1, _⟩ => rfl
    | ⟨2, _⟩ => rfl
  · refine broadcastInDim_apply _ h1 v (ix3 (0 : Fin 1) o k) (ix2 o k) fun a => ?_
    match a with
    | ⟨0, _⟩ => rfl
    | ⟨1, _⟩ => rfl

end Cert.XmmSpec

end
-- ==== Proof.RefValue.lean ====
/-
  The reference's first stage, read at an index: it is the common sum.

  At `(b, o)` the host's sum over the last axis, from the zero word, is `0 + Σ_k` of its operand at `(b, o, k)`;
  there the operand is the pointwise chain of the three broadcasts, which read `x (b, k)`, `bias (o, k)`,
  `scale (o, k)`, `weight (o, k)`, and of the two scalar constants.  The host's exponential and the vector
  unit's are one function on the extended reals.
-/
import proofs.«113032_j64570538328242_1_alg».proof.Proof.RefRun
import proofs.«113032_j64570538328242_1_alg».proof.Proof.XmmSpec

noncomputable section

open scoped BigOperators

namespace Cert.ReferenceIdeal.RefValue

open Cert.ReferenceIdeal Cert.ReferenceIdeal.Gen Cert.ReferenceIdeal.RefRun Cert.XmmSpec
open Idealize.ShloMosaic Idealize.ShloMosaic.TcCoe Idealize.ShloMosaic.ValueIdx

/-- The index the sum over the last axis reads at `(b, o)` and `k` is `(b, o, k)`. -/
theorem lift_eq (h : S2048x256x256.Reduces [2] S2048x256) (b : Fin 2048) (o : Fin 256) (k : Fin 256) :
    h.lift (ix2 b o) k = ix3 b o k := by
  funext a; apply Fin.ext
  match a with
  | ⟨0, _⟩ => rfl
  | ⟨1, _⟩ => rfl
  | ⟨2, _⟩ => rfl

/-- The three broadcasts of the first stage, in the program's own spelling, read at `(b, o, k)`. -/
theorem rows3_apply (x : FVec Ideal S2048x256 .f32) (b : Fin 2048) (o : Fin 256) (k : Fin 256) :
    broadcastInDim S2048x256x256 ![0, 1, 2] bcast_S2048x1x256_S2048x256x256_0_1_2
      (broadcastInDim S2048x1x256 ![0, 2] bcast_S2048x256_S2048x1x256_0_2 x) (ix3 b o k) = x (ix2 b k) :=
  bidRows_apply x _ _ b o k

theorem mat3_apply (v : FVec Ideal S256x256 .f32) (b : Fin 2048) (o : Fin 256) (k : Fin 256) :
    broadcastInDim S2048x256x256 ![0, 1, 2] bcast_S1x256x256_S2048x256x256_0_1_2
      (broadcastInDim S1x256x256 ![1, 2] bcast_S256x256_S1x256x256_1_2 v) (ix3 b o k) = v (ix2 o k) :=
  bidMat_apply v _ _ b o k

theorem splat3_apply (s : FVec Ideal S_ .f32) (b : Fin 2048) (o : Fin 256) (k : Fin 256) :
    broadcastInDim S2048x256x256 ![] bcast_S_S2048x256x256 s (ix3 b o k) = s ix0 :=
  broadcastInDim_scalar_apply _ s _

/-- The reference's first stage at `(b, o)` is the common sum. -/
theorem xmm_apply (x : FVec Ideal S2048x256 .f32) (sc bi w : FVec Ideal S256x256 .f32) (b : Fin 2048) (o : Fin 256) :
    xmm (F := Ideal) x sc bi w (ix2 b o) = rowSum x sc bi w b o := by
  have hred : S2048x256x256.Reduces [2] S2048x256 := by decide
  unfold xmm
  refine (hostReduceAdd_apply _ _ _ _ (ix2 b o)).trans ?_
  refine (Ideal.hostReduceAdd_single _ hred _ _ (ix2 b o)).trans ?_
  rw [constant_apply, Ideal.ofBits_zero_f32, zero_add]
  unfold rowSum
  show ∑ k : Fin 256, _ = ∑ k : Fin 256, _
  refine Finset.sum_congr rfl fun k _ => ?_
  rw [lift_eq hred b o k]
  simp only [hostExp_apply, mulf_apply, subf_apply, addf_apply]
  rw [rows3_apply, mat3_apply w, mat3_apply sc, mat3_apply bi, splat3_apply, splat3_apply]
  rfl

/-- So the reference's first stage is the common array. -/
theorem xmm_eq_Y (x : FVec Ideal S2048x256 .f32) (sc bi w : FVec Ideal S256x256 .f32) :
    xmm (F := Ideal) x sc bi w = Y x sc bi w := by
  funext i
  obtain ⟨b, o, rfl⟩ : ∃ (b : Fin 2048) (o : Fin 256), i = ix2 b o := ⟨i 0, i 1, eq_ix2 i⟩
  exact xmm_apply x sc bi w b o

end Cert.ReferenceIdeal.RefValue

end
-- ==== Proof.KernelValue.lean ====
/-
  The kernel's first stage as an array: what the one pallas_call leaves in its result array.

  Grid point `t` (of 128) holds rows `16·t … 16·t + 15` of `x` and the whole of `scale`, `bias`, `weight`;
  its body stores, at `(p, q)` of a `[16, 256]` block, the lane sum over `k` of the pointwise chain of the
  broadcast blocks — the common sum `rowSum` of the blocks at `(p, q)`.  Written back at rows
  `16·t … 16·t + 15` of the result array, that is block `t` of the common array `Y` of the argument arrays;
  the 128 blocks tile the `[2048, 256]` array, so after the run the array is `Y`.
-/
import proofs.«113032_j64570538328242_1_alg».proof.Proof.Gen.KernelIdeal.Frame
import proofs.«113032_j64570538328242_1_alg».proof.Proof.XmmSpec
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.XmmSpec

/-! ## The body's stored value at an index -/

/-- The index the lane sum reads at `(p, q)` and `k` is `(p, q, k)`. -/
theorem lift_eq (p : Fin 16) (q : Fin 256) (k : Fin 256) :
    reduces_S16x256x256_S16x256.lift (ix2 p q) k = ix3 p q k := by
  funext a; apply Fin.ext
  match a with
  | ⟨0, _⟩ => rfl
  | ⟨1, _⟩ => rfl
  | ⟨2, _⟩ => rfl

/-- The stored value at `(p, q)` is the common sum of the four loaded blocks at `(p, q)`. -/
theorem pay_apply (v0 : Vec Ideal S16x256 .f32) (v1 v2 v3 : Vec Ideal S256x256 .f32) (p : Fin 16) (q : Fin 256) :
    k0_pay1 (F := Ideal) v0 v1 v2 v3 (ix2 p q) = rowSum v0 v1 v2 v3 p q := by
  unfold k0_pay1
  refine (Ideal.multiReduction_add_single _ _ _ _ _ (ix2 p q)).trans ?_
  unfold rowSum
  show ∑ k : Fin 256, _ = ∑ k : Fin 256, _
  refine Finset.sum_congr rfl fun k _ => ?_
  rw [lift_eq p q k]
  simp only [exp_apply, mulf_apply, subf_apply, addf_apply, bcastRows_apply, bcastMat_apply, broadcast_apply]
  rfl

/-- The same against whole arrays the blocks are rows of. -/
theorem pay_eq_Y (X : S2048x256.Idx → EReal) (SC BI W : S256x256.Idx → EReal)
    (x0 : Vec Ideal S16x256 .f32) (x1 x2 x3 : Vec Ideal S256x256 .f32) (p : Fin 16) (q : Fin 256) (b : Fin 2048)
    (h0 : ∀ k : Fin 256, x0 (ix2 p k) = X (ix2 b k)) (h1 : ∀ k : Fin 256, x1 (ix2 q k) = SC (ix2 q k))
    (h2 : ∀ k : Fin 256, x2 (ix2 q k) = BI (ix2 q k)) (h3 : ∀ k : Fin 256, x3 (ix2 q k) = W (ix2 q k)) :
    k0_pay1 (F := Ideal) x0 x1 x2 x3 (ix2 p q) = Y X SC BI W (ix2 b q) := by
  rw [pay_apply, Y_apply]
  unfold rowSum
  exact Finset.sum_congr rfl fun k _ => by rw [h0 k, h1 k, h2 k, h3 k]

/-! ## The windows' blocks as rows of the arrays -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: `x`'s window and the result's sit at block row `t`, the three
    `[256, 256]` windows at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The arrays as the region finds them, at their literal types. -/
abbrev xArr (c : Dev nD) : S2048x256.Idx → EReal := V m c main_arg0
abbrev scArr (c : Dev nD) : S256x256.Idx → EReal := V m c main_arg1
abbrev biArr (c : Dev nD) : S256x256.Idx → EReal := V m c main_arg2
abbrev wArr (c : Dev nD) : S256x256.Idx → EReal := V m c main_arg3

/-- The blocks at a point, at their literal types. -/
abbrev xBlk (c : Dev nD) (t : Fin cfg0.N) : Vec Ideal S16x256 .f32 := iblk m c 0 t
abbrev scBlk (c : Dev nD) (t : Fin cfg0.N) : Vec Ideal S256x256 .f32 := iblk m c 1 t
abbrev biBlk (c : Dev nD) (t : Fin cfg0.N) : Vec Ideal S256x256 .f32 := iblk m c 2 t
abbrev wBlk (c : Dev nD) (t : Fin cfg0.N) : Vec Ideal S256x256 .f32 := iblk m c 3 t

/-- Block `t` of `x` at `(p, k)` is `x` at row `16·t + p`. -/
theorem xBlk_apply (c : Dev nD) (t : Fin cfg0.N) (p : Fin 16) (k : Fin 256) (b : Fin 2048) (hb : b.val = 16 * t.val + p.val) :
    xBlk m c t (ix2 p k) = xArr m c (ix2 b k) := by
  obtain ⟨e0, e1, -⟩ := idx_facts t
  unfold xBlk iblk
  rw [View.read_apply]
  show V m c main_arg0 _ = V m c main_arg0 _
  congr 1
  funext a; apply Fin.ext
  match a with
  | ⟨0, _⟩ => show win0_0.index t (0 : Fin 2) * 16 + 1 * p.val = b.val; rw [e0, hb]; omega
  | ⟨1, _⟩ => show win0_0.index t (1 : Fin 2) * 256 + 1 * k.val = k.val; rw [e1]; omega

theorem scBlk_apply (c : Dev nD) (t : Fin cfg0.N) (q : Fin 256) (k : Fin 256) :
    scBlk m c t (ix2 q k) = scArr m c (ix2 q k) := by
  obtain ⟨-, -, e0, e1, -⟩ := idx_facts t
  unfold scBlk iblk
  rw [View.read_apply]
  show V m c main_arg1 _ = V m c main_arg1 _
  congr 1
  funext a; apply Fin.ext
  match a with
  | ⟨0, _⟩ => show win0_1.index t (0 : Fin 2) * 256 + 1 * q.val = q.val; rw [e0]; omega
  | ⟨1, _⟩ => show win0_1.index t (1 : Fin 2) * 256 + 1 * k.val = k.val; rw [e1]; omega

theorem biBlk_apply (c : Dev nD) (t : Fin cfg0.N) (q : Fin 256) (k : Fin 256) :
    biBlk m c t (ix2 q k) = biArr m c (ix2 q k) := by
  obtain ⟨-, -, -, -, e0, e1, -⟩ := idx_facts t
  unfold biBlk iblk
  rw [View.read_apply]
  show V m c main_arg2 _ = V m c main_arg2 _
  congr 1
  funext a; apply Fin.ext
  match a with
  | ⟨0, _⟩ => show win0_2.index t (0 : Fin 2) * 256 + 1 * q.val = q.val; rw [e0]; omega
  | ⟨1, _⟩ => show win0_2.index t (1 : Fin 2) * 256 + 1 * k.val = k.val; rw [e1]; omega

theorem wBlk_apply (c : Dev nD) (t : Fin cfg0.N) (q : Fin 256) (k : Fin 256) :
    wBlk m c t (ix2 q k) = wArr m c (ix2 q k) := by
  obtain ⟨-, -, -, -, -, -, e0, e1, -⟩ := idx_facts t
  unfold wBlk iblk
  rw [View.read_apply]
  show V m c main_arg3 _ = V m c main_arg3 _
  congr 1
  funext a; apply Fin.ext
  match a with
  | ⟨0, _⟩ => show win0_3.index t (0 : Fin 2) * 256 + 1 * q.val = q.val; rw [e0]; omega
  | ⟨1, _⟩ => show win0_3.index t (1 : Fin 2) * 256 + 1 * k.val = k.val; rw [e1]; omega

/-! ## From blocks to the array -/

/-- The array index under `(p, q)` of the result's block at point `t`. -/
theorem emb4 (t : Fin cfg0.N) (p : Fin 16) (q : Fin 256) (b : Fin 2048) (hb : b.val = 16 * t.val + p.val) :
    ((cfg0.win 4).blk t).view.emb (ix2 p q) = (ix2 b q : S2048x256.Idx) := by
  obtain ⟨-, -, -, -, -, -, -, -, e0, e1⟩ := idx_facts t
  funext a; apply Fin.ext
  match a with
  | ⟨0, _⟩ => show win0_4.index t (0 : Fin 2) * 16 + 1 * p.val = b.val; rw [e0, hb]; omega
  | ⟨1, _⟩ => show win0_4.index t (1 : Fin 2) * 256 + 1 * q.val = q.val; rw [e1]; omega

/-- What point `t` writes back is block `t` of the common array of the argument arrays. -/
theorem flushed_eq (c : Dev nD) (t : Fin cfg0.N) :
    (dats m 0 c).flushed 4 t = ((cfg0.win 4).blk t).view.read (Elt Ideal) (Y (xArr m c) (scArr m c) (biArr m c) (wArr m c)) := by
  show (cfg0.win 4).cut (grid0.coords t) ((dats m 0 c).after 4 t) = _
  rw [after0_4]
  unfold out0_4
  rw [View.canon_unit_zero hz]
  simp only [View.ld_unit_zero (S := S16x256) hz, View.ld_unit_zero (S := S256x256) hz]
  funext j
  obtain ⟨p, q, rfl⟩ : ∃ (p : Fin 16) (q : Fin 256), j = ix2 p q := ⟨j 0, j 1, eq_ix2 j⟩
  have hN : cfg0.N = 128 := N_0
  have hb : 16 * t.val + p.val < 2048 := by have := t.isLt; have := p.isLt; omega
  show k0_pay1 (F := Ideal) (xBlk m c t) (scBlk m c t) (biBlk m c t) (wBlk m c t) (ix2 p q)
    = Y (xArr m c) (scArr m c) (biArr m c) (wArr m c) (((cfg0.win 4).blk t).view.emb (ix2 p q))
  rw [emb4 t p q ⟨16 * t.val + p.val, hb⟩ rfl]
  exact pay_eq_Y (xArr m c) (scArr m c) (biArr m c) (wArr m c) (xBlk m c t) (scBlk m c t) (biBlk m c t) (wBlk m c t) p q
    ⟨16 * t.val + p.val, hb⟩ (fun k => xBlk_apply m c t p k _ rfl) (fun k => scBlk_apply m c t q k)
    (fun k => biBlk_apply m c t q k) (fun k => wBlk_apply m c t q k)

/-- An index of the result array is in point `t`'s block iff each coordinate is in the block's range. -/
theorem mem_blk4 (t : Fin cfg0.N) (i : S2048x256.Idx) :
    i ∈ ((cfg0.win 4).blk t).view.set ↔ ∀ a : Fin 2, win0_4.index t a * S16x256.size a ≤ (i a).val ∧ (i a).val < win0_4.index t a * S16x256.size a + S16x256.size a := by
  show i ∈ ((View.whole main_v0).slice (win0_4.rect t)).set ↔ _
  rw [View.set_slice_whole, Rect.mem_set_unit]
  exact Iff.rfl

/-- Row `r` of the result array lies in the block of point `r / 16`: the blocks tile the array. -/
theorem cover4 (i : S2048x256.Idx) : ∃ t : Fin cfg0.N, (cfg0.win 4).flush t = true ∧ i ∈ ((cfg0.win 4).blk t).view.set := by
  have hi0 : (i 0).val < 2048 := (i 0).isLt
  have hi1 : (i 1).val < 256 := (i 1).isLt
  have hN : cfg0.N = 128 := N_0
  have ht : (i 0).val / 16 < cfg0.N := by omega
  obtain ⟨-, -, -, -, -, -, -, -, e0, e1⟩ := idx_facts ⟨(i 0).val / 16, ht⟩
  refine ⟨⟨(i 0).val / 16, ht⟩, flush0_4 _, ?_⟩
  rw [mem_blk4]
  intro a
  match a with
  | ⟨0, _⟩ =>
    show win0_4.index ⟨(i 0).val / 16, ht⟩ (0 : Fin 2) * 16 ≤ (i 0).val ∧ (i 0).val < win0_4.index ⟨(i 0).val / 16, ht⟩ (0 : Fin 2) * 16 + 16
    rw [e0]; show (i 0).val / 16 * 16 ≤ (i 0).val ∧ (i 0).val < (i 0).val / 16 * 16 + 16; omega
  | ⟨1, _⟩ =>
    show win0_4.index ⟨(i 0).val / 16, ht⟩ (1 : Fin 2) * 256 ≤ (i 1).val ∧ (i 1).val < win0_4.index ⟨(i 0).val / 16, ht⟩ (1 : Fin 2) * 256 + 256
    rw [e1]; omega

/-- After the run the result array of the pallas_call is the common array of the argument arrays. -/
theorem final4 (c : Dev nD) : (dats m 0 c).arrAt 4 cfg0.N = Y (xArr m c) (scArr m c) (biArr m c) (wArr m c) :=
  (dats m 0 c).arrAt_eq_of_cover 4 (Y (xArr m c) (scArr m c) (biArr m c) (wArr m c)) (fun t _ => flushed_eq m c t) cover4

end Cert.KernelIdeal.KValue

end
-- ==== Proof.KernelRun.lean ====
/-
  The kernel program's run, read: the pallas_call's result array is the common first-stage array, and the host
  operations after it are batch normalisation of that array by the last two arguments.

  The lines after the region are the same operations as the reference's last stretch — the column sums divided by
  2048, the variance helper with its select, `γ·(y − mean)·rsqrt(var + ε) + β` — so their fold at the result buffer
  is the one function `bnTail` of what the region left in its result array and of the two untouched arguments; it is
  never opened.
-/
import proofs.«113032_j64570538328242_1_alg».proof.Proof.KernelValue
import proofs.«113032_j64570538328242_1_alg».proof.Proof.RefRun
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.KRun

open Cert.KernelIdeal Cert.KernelIdeal.Gen Cert.KernelIdeal.KValue Cert.XmmSpec
open Cert.ReferenceIdeal.RefRun (bnTail)

section Tail
variable {F : FTy → Type} [FloatOps F]

set_option maxRecDepth 8192 in
/-- The lines after the region, folded over any contents, leave at the result buffer batch normalisation of the
    region's result array by the last two arguments. -/
theorem tail_fold (W : Valuation τ sig (Elt F)) :
    after (List.flatten [hostOps1, hostOps1_1, hostOps1_2]) W (Proc.devRef .tc main_v19)
      = bnTail (F := F) (W (Proc.devRef .tc main_v0)) (W (Proc.devRef .tc main_arg4)) (W (Proc.devRef .tc main_arg5)) := by
  simp only [hostOps1, hostOps1_1, hostOps1_2, List.flatten_cons, List.flatten_nil, List.append_nil, List.cons_append, List.nil_append]
  after_results_simp
  rfl

end Tail

variable (m : (ℓ : Loc nD τ sig) → Buf (Elt Ideal) ℓ) (ρ : Dev nD → PrngReg)

/-- Batch normalisation respects equal operands. -/
theorem bnTail_congr {y y' : FVec Ideal Cert.ReferenceIdeal.S2048x256 .f32} {g g' b b' : FVec Ideal Cert.ReferenceIdeal.S256 .f32}
    (hy : y = y') (hg : g = g') (hb : b = b') : bnTail (F := Ideal) y g b = bnTail y' g' b' := by
  subst hy hg hb; rfl

/-- @main's result buffer after the run. -/
theorem result_eq (c : Dev nD) :
    Pipeline.afterTail₀ cfgs (dats m) 0 (V0 m) [hostOps1, hostOps1_1, hostOps1_2] c main_v19
      = bnTail (F := Ideal) (Y (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5)) := by
  unfold Pipeline.afterTail₀
  refine (tail_fold _).trans (bnTail_congr ?_ ?_ ?_)
  · exact (Pipeline.withArrays_arr spec0 launch0.win.arr_inj c _ _ 4).trans (final4 m c)
  · exact (Pipeline.withArrays_of_ne _ c (V0 m c) _ main_arg4 (by exact (by decide : ∀ w, Pipeline.arrRef spec0 w ≠ main_arg4))).trans (V_main_arg4 m c)
  · exact (Pipeline.withArrays_of_ne _ c (V0 m c) _ main_arg5 (by exact (by decide : ∀ w, Pipeline.arrRef spec0 w ≠ main_arg5))).trans (V_main_arg5 m c)

/-- The run, read: the result buffer ends at batch normalisation of the common array of the first four launch
    arguments by the last two, and the arguments end unchanged. -/
theorem run : θ_run defs (onTc (τ := τ) (main (F := Ideal))) ⟨m, fun _ => 0, ρ⟩ fun r => ∀ c : Dev nD,
      r.2.mem ((c.tc : Thread nD τ).loc main_v19)
          = bnTail (F := Ideal) (Y (m ((c.tc : Thread nD τ).loc main_arg0)) (m ((c.tc : Thread nD τ).loc main_arg1)) (m ((c.tc : Thread nD τ).loc main_arg2)) (m ((c.tc : Thread nD τ).loc main_arg3)))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v19 (Pipeline.mem_restRefs_of main_v19 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KRun

end
-- ==== Proof.lean ====
/-
  The certificate: the Pallas kernel (a tiled first stage followed by batch normalisation on the host) against
  its jnp reference, over the extended reals.

  Both programs compute, for batch row `b` and output feature `o`,

      y[b,o] = Σ_i weight[o,i] · ((g − 1) · exp((−½·g)·g)),   g = scale[o,i] · (x[b,i] + bias[o,i]),

  and then the same batch normalisation of `y` over the batch axis,  γ·(y − mean)·rsqrt(var + ε) + β.
  The kernel computes `y` sixteen rows at a time in a pallas_call, whose 128 blocks tile the result array; the
  reference computes it with whole-array broadcasts and one host sum.  Term by term the two sums are the same
  (same operations in the same order on the same scalars; the exponential is one function on the extended
  reals), so no algebraic law beyond reading both sides at an index is needed, and the precondition is not used.
  The normalisation is the same chain of host operations in both programs and is carried as one function.

  The frames of the two kernel programs are the generated frame certificates; the reference's frame is its run
  with the result dropped; the idealisation rewrote nothing, so `preserves` is trivial.
-/
import proofs.«113032_j64570538328242_1_alg».proof.Defs
import proofs.«113032_j64570538328242_1_alg».proof.Proof.Gen.Kernel
import proofs.«113032_j64570538328242_1_alg».proof.Proof.Gen.Kernel.Skeleton
import proofs.«113032_j64570538328242_1_alg».proof.Proof.Gen.Kernel.Launch
import proofs.«113032_j64570538328242_1_alg».proof.Proof.Gen.Kernel.Points
import proofs.«113032_j64570538328242_1_alg».proof.Proof.Gen.Kernel.Frame
import proofs.«113032_j64570538328242_1_alg».proof.Proof.Gen.KernelIdeal
import proofs.«113032_j64570538328242_1_alg».proof.Proof.Gen.KernelIdeal.Skeleton
import proofs.«113032_j64570538328242_1_alg».proof.Proof.Gen.KernelIdeal.Launch
import proofs.«113032_j64570538328242_1_alg».proof.Proof.Gen.KernelIdeal.Points
import proofs.«113032_j64570538328242_1_alg».proof.Proof.Gen.KernelIdeal.Frame
import proofs.«113032_j64570538328242_1_alg».proof.Proof.Gen.ReferenceIdeal
import proofs.«113032_j64570538328242_1_alg».proof.Proof.Gen.Pre_finite_inputs
import proofs.«113032_j64570538328242_1_alg».proof.Proof.RefRun
import proofs.«113032_j64570538328242_1_alg».proof.Proof.RefValue
import proofs.«113032_j64570538328242_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end at batch normalisation of the common first-stage array of arguments that agree. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5⟩ := hagree c
  rw [Cert.ReferenceIdeal.RefValue.xmm_eq_Y, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
